-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg6 : FVec F S512 .f32) (main_arg7 : FVec F S512x2 .f32) (main_arg8 : FVec F S2 .f32) (main_v33 : IVec S_ 1) : IVec S_ 1 :=
  let main_v34 : FVec F S512x2 .f32 := Host.absf main_arg7
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_cst_16 : FVec F S_ .f32 := constant S_ .f32 0x3727C5AC#32
  let main_v44 : FVec F S512 .f32 := broadcastInDim S512 ![] bcast_S_S512 main_cst_16
  let main_v45 : FVec F S512 .f32 := addf main_arg6 main_v44
  let main_cst_17 : FVec F S_ .f32 := constant S_ .f32 0x00000000#32
  let main_v46 : FVec F S512 .f32 := broadcastInDim S512 ![] bcast_S_S512 main_cst_17
  let main_v47 : IVec S512 1 := cmpf .ogt main_v45 main_v46
  let main_c_18 : IVec S_ 1 := constantI S_ 1 1#1
  let main_v48 : IVec S_ 1 := (fun x v => Host.reduce IntOp.andi x v reducesTo_S512_S_d0 h_S_) main_v47 main_c_18
  let main_v49 : IVec S_ 1 := andi main_v43 main_v48
  main_v49

def fn_part1 {F : FTy → Type} [FloatOps F] (main_arg4 : FVec F S512 .f32) (main_arg5 : FVec F S512 .f32) (main_arg6 : FVec F S512 .f32) (main_arg7 : FVec F S512x2 .f32) (main_arg8 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_v33

def fn {F : FTy → Type} [FloatOps F] (main_arg0 : FVec F S16x2048x256 .f32) (main_arg1 : FVec F S256x512 .f32) (main_arg2 : FVec F S512 .f32) (main_arg3 : FVec F S512 .f32) (main_arg4 : FVec F S512 .f32) (main_arg5 : FVec F S512 .f32) (main_arg6 : FVec F S512 .f32) (main_arg7 : FVec F S512x2 .f32) (main_arg8 : FVec F S2 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S32768x256 : Shape := ⟨2, ![32768, 256]⟩
abbrev S1x512 : Shape := ⟨2, ![1, 512]⟩
abbrev S1x2 : Shape := ⟨2, ![1, 2]⟩
abbrev S32768x2 : Shape := ⟨2, ![32768, 2]⟩
abbrev S2048x256 : Shape := ⟨2, ![2048, 256]⟩
abbrev S2048x2 : Shape := ⟨2, ![2048, 2]⟩
abbrev S2048x512 : Shape := ⟨2, ![2048, 512]⟩
abbrev S16x2048x2 : Shape := ⟨3, ![16, 2048, 2]⟩

abbrev nBuf : Space → Nat
  | .hbm => 18
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S256x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S32768x256, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x2, .f32⟩
  | .hbm, ⟨16, _⟩ => ⟨S32768x2, .f32⟩
  | .hbm, ⟨17, _⟩ => ⟨S16x2048x2, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x2, .f32⟩
  | .local _ .vmem, ⟨9, _⟩ => ⟨S1x2, .f32⟩
  | .local _ .vmem, ⟨10, _⟩ => ⟨S2048x2, .f32⟩
  | .local _ .vmem, ⟨11, _⟩ => ⟨S2048x2, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16x2048x256_S32768x256 : S16x2048x256.ShapeCasts S32768x256
  shapeCasts_S512_S1x512 : S512.ShapeCasts S1x512
  shapeCasts_S2_S1x2 : S2.ShapeCasts S1x2
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x2_S512x2_0_0 : ∀ a, (![0, 0] : Fin 2 → Nat) a + S512x2.size a ≤ S512x2.size a
  h_S512x2 : 0 < S512x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  shapeCasts_S32768x2_S16x2048x2 : S32768x2.ShapeCasts S16x2048x2
  dot_S2048x256_S256x512_S2048x512_1_0_0_1_n_n_wf : DotDims.WF S2048x256 S256x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S512x2.size a
  hwx0_7 : ∀ i : grid0.Coords, EltTy.bits .f32 = 32 ∨ (Rect.block (s := S512x2) S512x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S32768x2.size a
  hwx0_9 : ∀ i : grid0.Coords, EltTy.bits .f32 = 32 ∨ (Rect.block (s := S32768x2) S2048x2.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S256x512 : Shape := ⟨2, ![256, 512]⟩
abbrev S512 : Shape := ⟨1, ![512]⟩
abbrev S512x2 : Shape := ⟨2, ![512, 2]⟩
abbrev S2 : Shape := ⟨1, ![2]⟩
abbrev S16x2048x512 : Shape := ⟨3, ![16, 2048, 512]⟩
abbrev S1x1x512 : Shape := ⟨3, ![1, 1, 512]⟩
abbrev S_ : Shape := ⟨0, ![]⟩
abbrev S16x2048x2 : Shape := ⟨3, ![16, 2048, 2]⟩
abbrev S1x1x2 : Shape := ⟨3, ![1, 1, 2]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S256x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S16x2048x512, .f32⟩
  | .hbm, ⟨10, _⟩ => ⟨S1x1x512, .f32⟩
  | .hbm, ⟨11, _⟩ => ⟨S16x2048x512, .f32⟩
  | .hbm, ⟨12, _⟩ => ⟨S16x2048x512, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S1x1x512, .f32⟩
  | .hbm, ⟨17, _⟩ => ⟨S16x2048x512, .f32⟩
  | .hbm, ⟨18, _⟩ => ⟨S16x2048x512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x1x512, .f32⟩
  | .hbm, ⟨24, _⟩ => ⟨S16x2048x512, .f32⟩
  | .hbm, ⟨25, _⟩ => ⟨S16x2048x512, .f32⟩
  | .hbm, ⟨26, _⟩ => ⟨S1x1x512, .f32⟩
  | .hbm, ⟨27, _⟩ => ⟨S16x2048x512, .f32⟩
  | .hbm, ⟨28, _⟩ => ⟨S16x2048x512, .f32⟩
  | .hbm, ⟨29, _⟩ => ⟨S1x1x512, .f32⟩
  | .hbm, ⟨30, _⟩ => ⟨S16x2048x512, .f32⟩
  | .hbm, ⟨31, _⟩ => ⟨S16x2048x512, .f32⟩
  | .hbm, ⟨32, _⟩ => ⟨S16x2048x2, .f32⟩
  | .hbm, ⟨33, _⟩ => ⟨S1x1x2, .f32⟩
  | .hbm, ⟨34, _⟩ => ⟨S16x2048x2, .f32⟩
  | .hbm, ⟨35, _⟩ => ⟨S16x2048x2, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  bcast_S_S512 : S_.BroadcastsInDim S512 (![] : Fin 0 → Fin S512.rank)
  bcast_S2_S1x1x2_2 : S2.BroadcastsInDim S1x1x2 (![2] : Fin 1 → Fin S1x1x2.rank)
  bcast_S1x1x2_S16x2048x2_0_1_2 : S1x1x2.BroadcastsInDim S16x2048x2 (![0, 1, 2] : Fin 3 → Fin S16x2048x2.rank)
  dot_S16x2048x256_S256x512_S16x2048x512_2_0_01_1_n_n_wf : DotDims.WF S16x2048x256 S256x512 S16x2048x512 [2] [0] [0, 1] [1] [] []
  dot_S16x2048x512_S512x2_S16x2048x2_2_0_01_1_n_n_wf : DotDims.WF S16x2048x512 S512x2 S16x2048x2 [2] [0] [0, 1] [1] [] []

variable [Facts₀]

def dot_S16x2048x256_S256x512_S16x2048x512_2_0_01_1_n_n : DotDims S16x2048x256 S256x512 S16x2048x512 where
  lhsContracting := [2]
  rhsContracting := [0]
  lhsNonContracting := [0, 1]
  rhsNonContracting := [1]
  lhsBatch := []
  rhsBatch := []
  wf := dot_S16x2048x256_S256x512_S16x2048x512_2_0_01_1_n_n_wf
def dot_S16x2048x512_S512x2_S16x2048x2_2_0_01_1_n_n : DotDims S16x2048x512 S512x2 S16x2048x2 where
  lhsContracting := [2]
  rhsContracting := [0]
  lhsNonContracting := [0, 1]
  rhsNonContracting := [1]
  lhsBatch := []
  rhsBatch := []
  wf := dot_S16x2048x512_S512x2_S16x2048x2_2_0_01_1_n_n_wf

class Facts : Prop extends Facts₀ where

variable [Facts]
-- ==== Proof.Spec.lean ====
/-
  One output entry of the decoder, as a function of one input row and the parameters, over the extended reals.

  A row x (256 features) goes through the first linear layer and the ramp,
      a k = max (Σ_d x d · W1 (d, k) + b1 k) 0,
  then through the per-channel normalisation, written in two arrangements,
      kernel:     a · (γ · rsqrt (v + ε)) + (β − μ · (γ · rsqrt (v + ε)))
      reference:  (a − μ) / sqrt (v + ε) · γ + β,
  and through the second linear layer, Σ_k h k · W2 (k, o) + b2 o.

  The two arrangements are one real number when a, γ, β, μ are finite and 0 < v + ε: then rsqrt (v + ε) is the
  real 1 / √(v + ε), the quotient is the product with it, and the identity is distributivity in ℝ. (At v + ε = 0
  the first is ∞ − ∞ where the second is a quotient by zero, and below zero both square roots leave their domain:
  the hypothesis 0 < v + ε is needed.)
-/
import Idealize.ShloMosaic.PureOps.Ideal
import Idealize.ShloMosaic.PureOps.Ideal.Laws
import Idealize.ShloMosaic.Lib.ValueIdx

noncomputable section

namespace Cert.Decoder

open Idealize.ShloMosaic Idealize.ShloMosaic.ValueIdx
open scoped BigOperators

/-- The variance offset ε: the one f32 word both programs add to the variance. -/
def eps : EReal := Ideal.ofBits .f32 0x3727C5AC#32

/-- An extended real that is a real number. -/
def IsReal (a : EReal) : Prop := ∃ x : ℝ, a = (x : EReal)

/-- The normalised channel in the kernel's arrangement: scale = γ · rsqrt (v + ε), shift = β − μ · scale. -/
def hidK (a g v b mu : EReal) : EReal :=
  a * (g * Ideal.rsqrt (v + eps)) + (b - mu * (g * Ideal.rsqrt (v + eps)))

/-- The normalised channel in the reference's arrangement. -/
def hidR (a g v b mu : EReal) : EReal :=
  Ideal.div (a - mu) (Ideal.sqrt (v + eps)) * g + b

/-- The first layer and the ramp, at channel k, of one input row. -/
def act (xrow : Fin 256 → EReal) (W1 : (⟨2, ![256, 512]⟩ : Shape).Idx → EReal) (b1 : Fin 512 → EReal) (k : Fin 512) : EReal :=
  max ((∑ d : Fin 256, xrow d * W1 (ix2 d k)) + b1 k) 0

/-- One output entry, for a given arrangement `hid` of the normalisation. -/
def entry (hid : EReal → EReal → EReal → EReal → EReal → EReal) (xrow : Fin 256 → EReal)
    (W1 : (⟨2, ![256, 512]⟩ : Shape).Idx → EReal) (b1 g beta mu var : Fin 512 → EReal)
    (W2 : (⟨2, ![512, 2]⟩ : Shape).Idx → EReal) (b2o : EReal) (o : Fin 2) : EReal :=
  (∑ k : Fin 512, hid (act xrow W1 b1 k) (g k) (var k) (beta k) (mu k) * W2 (ix2 k o)) + b2o

/-- ε is a real number (a normal f32 pattern). -/
theorem eps_isReal : IsReal eps := by
  unfold eps IsReal
  simp [Ideal.ofBits, Ideal.ieee, -EReal.coe_mul]

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert i s hi ih =>
    obtain ⟨x, hx⟩ := h i (Finset.mem_insert_self _ _)
    obtain ⟨y, hy⟩ := ih (fun j hj => h j (Finset.mem_insert_of_mem hj))
    exact ⟨x + y, by rw [Finset.sum_insert hi, hx, hy, EReal.coe_add]⟩

/-- The activation of a finite row under finite weights is a real number. -/
theorem act_isReal (xrow : Fin 256 → EReal) (W1 : (⟨2, ![256, 512]⟩ : Shape).Idx → EReal) (b1 : Fin 512 → EReal) (k : Fin 512)
    (hx : ∀ d, IsReal (xrow d)) (hW : ∀ i, IsReal (W1 i)) (hb : IsReal (b1 k)) : IsReal (act xrow W1 b1 k) := by
  unfold act
  obtain ⟨s, hs⟩ := isReal_sum Finset.univ (fun d => xrow d * W1 (ix2 d k)) (fun d _ => by
    obtain ⟨x, hx⟩ := hx d
    obtain ⟨w, hw⟩ := hW (ix2 d k)
    exact ⟨x * w, by rw [hx, hw, EReal.coe_mul]⟩)
  obtain ⟨b, hb⟩ := hb
  refine ⟨max (s + b) 0, ?_⟩
  rw [hs, hb, ← EReal.coe_add, ← EReal.coe_zero]
  exact (EReal.coe_strictMono.monotone.map_max).symm

/-- The two arrangements agree on real arguments with 0 < v + ε. -/
theorem hid_eq (a g v b mu : EReal) (ha : IsReal a) (hg : IsReal g) (hv : IsReal v) (hb : IsReal b) (hmu : IsReal mu)
    (hpos : 0 < v + eps) : hidK a g v b mu = hidR a g v b mu := by
  obtain ⟨a, rfl⟩ := ha
  obtain ⟨g, rfl⟩ := hg
  obtain ⟨v, rfl⟩ := hv
  obtain ⟨b, rfl⟩ := hb
  obtain ⟨mu, rfl⟩ := hmu
  obtain ⟨e, he⟩ := eps_isReal
  unfold hidK hidR
  rw [he] at hpos ⊢
  rw [← EReal.coe_add] at hpos ⊢
  have hp : 0 < v + e := by exact_mod_cast hpos
  have hs : 0 < Real.sqrt (v + e) := Real.sqrt_pos.mpr hp
  rw [Ideal.rsqrt_coe, if_neg (not_lt.mpr hp.le), if_neg hp.ne', Ideal.sqrt_coe, if_neg (not_lt.mpr hp.le),
    Ideal.div_coe hs.ne']
  rw [← EReal.coe_mul, ← EReal.coe_mul, ← EReal.coe_mul, ← EReal.coe_sub, ← EReal.coe_add, ← EReal.coe_sub, ← EReal.coe_mul,
    ← EReal.coe_mul, ← EReal.coe_add]
  congr 1
  field_simp
  ring

/-- One output entry is the same in both arrangements, for a finite row, finite parameters and 0 < v + ε on every channel. -/
theorem entry_eq (xrow : Fin 256 → EReal) (W1 : (⟨2, ![256, 512]⟩ : Shape).Idx → EReal) (b1 g beta mu var : Fin 512 → EReal)
    (W2 : (⟨2, ![512, 2]⟩ : Shape).Idx → EReal) (b2o : EReal) (o : Fin 2)
    (hx : ∀ d, IsReal (xrow d)) (hW : ∀ i, IsReal (W1 i)) (hb1 : ∀ k, IsReal (b1 k)) (hg : ∀ k, IsReal (g k))
    (hbeta : ∀ k, IsReal (beta k)) (hmu : ∀ k, IsReal (mu k)) (hvar : ∀ k, IsReal (var k)) (hpos : ∀ k, 0 < var k + eps) :
    entry hidK xrow W1 b1 g beta mu var W2 b2o o = entry hidR xrow W1 b1 g beta mu var W2 b2o o := by
  unfold entry
  congr 1
  refine Finset.sum_congr rfl fun k _ => ?_
  rw [hid_eq _ _ _ _ _ (act_isReal xrow W1 b1 k hx hW (hb1 k)) (hg k) (hvar k) (hbeta k) (hmu k) (hpos k)]

end Cert.Decoder

end
-- ==== Proof.Result.lean ====
/-
  The whole result as one function of the nine inputs: entry (a, b, o) is the decoder's entry of row (a, b) of x.
  The kernel's and the reference's arrangements of the normalisation give the same result array when every input
  entry is a real number and 0 < var k + ε on every channel.
-/
import proofs.«112850_g12257836662994_cont_main3_557_6_alg».proof.Proof.Spec

noncomputable section

namespace Cert.Decoder

open Idealize.ShloMosaic Idealize.ShloMosaic.ValueIdx

/-- The result array, for a given arrangement `hid` of the normalisation. -/
def out3 (hid : EReal → EReal → EReal → EReal → EReal → EReal) (x0 : (⟨3, ![16, 2048, 256]⟩ : Shape).Idx → EReal)
    (x1 : (⟨2, ![256, 512]⟩ : Shape).Idx → EReal) (x2 x3 x4 x5 x6 : (⟨1, ![512]⟩ : Shape).Idx → EReal)
    (x7 : (⟨2, ![512, 2]⟩ : Shape).Idx → EReal) (x8 : (⟨1, ![2]⟩ : Shape).Idx → EReal) :
    (⟨3, ![16, 2048, 2]⟩ : Shape).Idx → EReal :=
  fun i => entry hid (fun d => x0 (ix3 (i 0) (i 1) d)) x1 (fun k => x2 (ix1 k)) (fun k => x3 (ix1 k)) (fun k => x4 (ix1 k))
    (fun k => x5 (ix1 k)) (fun k => x6 (ix1 k)) x7 (x8 (ix1 (i 2))) (i 2)

theorem out3_eq (x0 : (⟨3, ![16, 2048, 256]⟩ : Shape).Idx → EReal)
    (x1 : (⟨2, ![256, 512]⟩ : Shape).Idx → EReal) (x2 x3 x4 x5 x6 : (⟨1, ![512]⟩ : Shape).Idx → EReal)
    (x7 : (⟨2, ![512, 2]⟩ : Shape).Idx → EReal) (x8 : (⟨1, ![2]⟩ : Shape).Idx → EReal)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (hpos : ∀ i, 0 < x6 i + eps) :
    out3 hidK x0 x1 x2 x3 x4 x5 x6 x7 x8 = out3 hidR x0 x1 x2 x3 x4 x5 x6 x7 x8 := by
  funext i
  exact entry_eq _ _ _ _ _ _ _ _ _ _ (fun d => h0 _) h1 (fun k => h2 _) (fun k => h3 _) (fun k => h4 _) (fun k => h5 _)
    (fun k => h6 _) (fun k => hpos _)

end Cert.Decoder

end
-- ==== Proof.PreDecode.lean ====
/-
  The precondition read back: where the printed predicate is all ones, every entry of every input is a real number
  (each |x| < +∞ conjunct), and 0 < var k + ε on every channel (the last conjunct).
-/
import proofs.«112850_g12257836662994_cont_main3_557_6_alg».proof.Pre_finite_inputs
import proofs.«112850_g12257836662994_cont_main3_557_6_alg».proof.Proof.Spec
import Idealize.ShloMosaic.Lib.ReduceAll
import Idealize.ShloMosaic.Lib.ValueIdx
import Idealize.ShloMosaic.PureOps.Ideal.Laws

noncomputable section

namespace Cert.Decoder

open Idealize.ShloMosaic Idealize.ShloMosaic.ValueIdx Cert.Pre_finite_inputs

instance subsingleton_scalarIdx : Subsingleton S_.Idx := ⟨fun _ _ => funext fun d => d.elim0⟩

/-- An extended real whose absolute value is below +∞ is a real number. -/
theorem isReal_of_abs_lt (x : EReal)
    (h : FloatOps.cmpf (F := Ideal) (φ := .f32) .olt (FloatOps.hostAbsf x) (Ideal.ofBits .f32 0x7F800000#32) = 1#1) : IsReal x := by
  have htop : Ideal.ofBits .f32 0x7F800000#32 = ⊤ := by simp [Ideal.ofBits, Ideal.ieee]
  rw [Ideal.cmpf_def, Ideal.hostAbsf_def, Ideal.absf_def, htop] at h
  have h' : max x (-x) < ⊤ := by
    by_contra hn
    simp [Ideal.cmp, hn] at h
  induction x using EReal.rec with
  | bot => simp at h'
  | top => simp at h'
  | coe r => exact ⟨r, rfl⟩

/-- The word of `a > 0` being one says 0 < a. -/
theorem pos_of_gt_zero (a : EReal)
    (h : FloatOps.cmpf (F := Ideal) (φ := .f32) .ogt a (Ideal.ofBits .f32 0x00000000#32) = 1#1) : 0 < a := by
  rw [Ideal.cmpf_def, Ideal.ofBits_zero_f32] at h
  by_contra hn
  simp [Ideal.cmp, hn] at h

variable [Cert.Pre_finite_inputs.Facts]

/-- Every conjunct of the precondition, read at an index. -/
theorem pre_facts (a0 : FVec Ideal S16x2048x256 .f32) (a1 : FVec Ideal S256x512 .f32) (a2 a3 a4 a5 a6 : FVec Ideal S512 .f32)
    (a7 : FVec Ideal S512x2 .f32) (a8 : FVec Ideal S2 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ ∀ i, 0 < a6 i + eps := by
  have h0 := congrFun h ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i),
    fun i => isReal_of_abs_lt _ (Host.reduce_andi_all _ _ _ _ _ e7 i),
    fun i => isReal_of_abs_lt _ (Host.reduce_andi_all _ _ _ _ _ e8 i),
    fun i => pos_of_gt_zero _ (Host.reduce_andi_all _ _ _ _ _ e9 i)⟩

end Cert.Decoder

end
-- ==== Proof.RefValue.lean ====
/-
  The reference at an index: its result at (a, b, o) is the decoder's entry, in the reference's arrangement of the
  normalisation, of row (a, b) of x and the parameters.
-/
import proofs.«112850_g12257836662994_cont_main3_557_6_alg».proof.Proof.Gen.ReferenceIdeal.Read
import proofs.«112850_g12257836662994_cont_main3_557_6_alg».proof.Proof.Result

noncomputable section

namespace Cert.Decoder

open Idealize.ShloMosaic Idealize.ShloMosaic.ValueIdx Cert.ReferenceIdeal Cert.ReferenceIdeal.Read
open scoped BigOperators

theorem lidx21 (a : Fin 16) (b : Fin 2048) (o : Fin 2) (k : Fin 512) : lidx_main_v21 (ix3 a b o) k = ix3 a b k :=
  funext fun d => Fin.ext (by match d with | ⟨0, _⟩ => rfl | ⟨1, _⟩ => rfl | ⟨2, _⟩ => rfl)
theorem ridx21 (a : Fin 16) (b : Fin 2048) (o : Fin 2) (k : Fin 512) : ridx_main_v21 (ix3 a b o) k = ix2 k o :=
  funext fun d => Fin.ext (by match d with | ⟨0, _⟩ => rfl | ⟨1, _⟩ => rfl)
theorem idx22 (a : Fin 16) (b : Fin 2048) (o : Fin 2) : idx_main_v22 (idx_main_v23 (ix3 a b o)) = ix1 o :=
  funext fun d => Fin.ext (by match d with | ⟨0, _⟩ => rfl)
theorem lidx0 (a : Fin 16) (b : Fin 2048) (k : Fin 512) (d : Fin 256) : lidx_main_v0 (ix3 a b k) d = ix3 a b d :=
  funext fun e => Fin.ext (by match e with | ⟨0, _⟩ => rfl | ⟨1, _⟩ => rfl | ⟨2, _⟩ => rfl)
theorem ridx0 (a : Fin 16) (b : Fin 2048) (k : Fin 512) (d : Fin 256) : ridx_main_v0 (ix3 a b k) d = ix2 d k :=
  funext fun e => Fin.ext (by match e with | ⟨0, _⟩ => rfl | ⟨1, _⟩ => rfl)
theorem idx1 (a : Fin 16) (b : Fin 2048) (k : Fin 512) : idx_main_v1 (idx_main_v2 (ix3 a b k)) = ix1 k :=
  funext fun d => Fin.ext (by match d with | ⟨0, _⟩ => rfl)
theorem idx6 (a : Fin 16) (b : Fin 2048) (k : Fin 512) : idx_main_v6 (idx_main_v7 (ix3 a b k)) = ix1 k :=
  funext fun d => Fin.ext (by match d with | ⟨0, _⟩ => rfl)
theorem idx12 (a : Fin 16) (b : Fin 2048) (k : Fin 512) : idx_main_v12 (idx_main_v13 (ix3 a b k)) = ix1 k :=
  funext fun d => Fin.ext (by match d with | ⟨0, _⟩ => rfl)
theorem idx15 (a : Fin 16) (b : Fin 2048) (k : Fin 512) : idx_main_v15 (idx_main_v16 (ix3 a b k)) = ix1 k :=
  funext fun d => Fin.ext (by match d with | ⟨0, _⟩ => rfl)
theorem idx18 (a : Fin 16) (b : Fin 2048) (k : Fin 512) : idx_main_v18 (idx_main_v19 (ix3 a b k)) = ix1 k :=
  funext fun d => Fin.ext (by match d with | ⟨0, _⟩ => rfl)

/-- The normalised hidden value of the reference at (a, b, k). -/
theorem ref_hidden (x0 : FVec Ideal S16x2048x256 .f32) (x1 : FVec Ideal S256x512 .f32) (x2 x3 x4 x5 x6 : FVec Ideal S512 .f32)
    (a : Fin 16) (b : Fin 2048) (k : Fin 512) :
    val_main_v20 (F := Ideal) x0 x1 x2 x3 x4 x5 x6 (ix3 a b k)
      = hidR (act (fun d => x0 (ix3 a b d)) x1 (fun k => x2 (ix1 k)) k) (x3 (ix1 k)) (x6 (ix1 k)) (x4 (ix1 k)) (x5 (ix1 k)) := by
  rw [val_main_v20_apply, val_main_v17_apply, val_main_v19_apply, val_main_v18_apply, val_main_v14_apply, val_main_v16_apply,
    val_main_v15_apply, val_main_v8_apply, val_main_v13_apply, val_main_v12_apply, val_main_v11_apply, val_main_v10_apply,
    val_main_v9_apply, val_main_cst_0_apply, val_main_v5_apply, val_main_v7_apply, val_main_v6_apply, val_main_v3_apply,
    val_main_v4_apply, val_main_cst_apply, val_main_v0_apply, val_main_v2_apply, val_main_v1_apply,
    idx1, idx6, idx12, idx15, idx18]
  simp only [lidx0, ridx0, Ideal.addf_def, Ideal.mulf_def, Ideal.hostDivf_def, Ideal.subf_def, Ideal.maximumf_def,
    Ideal.hostUnary_sqrt_def, Ideal.ofBits_def, Ideal.ofBits_zero_f32]
  rfl

theorem ref_entry (x0 : FVec Ideal S16x2048x256 .f32) (x1 : FVec Ideal S256x512 .f32) (x2 x3 x4 x5 x6 : FVec Ideal S512 .f32)
    (x7 : FVec Ideal S512x2 .f32) (x8 : FVec Ideal S2 .f32) (a : Fin 16) (b : Fin 2048) (o : Fin 2) :
    val_main_v24 (F := Ideal) x0 x1 x2 x3 x4 x5 x6 x7 x8 (ix3 a b o)
      = entry hidR (fun d => x0 (ix3 a b d)) x1 (fun k => x2 (ix1 k)) (fun k => x3 (ix1 k)) (fun k => x4 (ix1 k))
          (fun k => x5 (ix1 k)) (fun k => x6 (ix1 k)) x7 (x8 (ix1 o)) o := by
  rw [val_main_v24_apply, val_main_v21_apply, val_main_v23_apply, val_main_v22_apply]
  rw [idx22]
  simp only [lidx21, ridx21, ref_hidden]
  rfl

/-- The reference's result array is the result function in the reference's arrangement. -/
theorem ref_value (x0 : FVec Ideal S16x2048x256 .f32) (x1 : FVec Ideal S256x512 .f32) (x2 x3 x4 x5 x6 : FVec Ideal S512 .f32)
    (x7 : FVec Ideal S512x2 .f32) (x8 : FVec Ideal S2 .f32) :
    val_main_v24 (F := Ideal) x0 x1 x2 x3 x4 x5 x6 x7 x8 = out3 hidR x0 x1 x2 x3 x4 x5 x6 x7 x8 := by
  funext i
  obtain ⟨a, b, o, rfl⟩ : ∃ (a : Fin 16) (b : Fin 2048) (o : Fin 2), i = ix3 a b o := ⟨i 0, i 1, i 2, eq_ix3 i⟩
  exact ref_entry x0 x1 x2 x3 x4 x5 x6 x7 x8 a b o

end Cert.Decoder

end
-- ==== Proof.Payload.lean ====
/-
  The kernel body's arithmetic at an index: what one grid step stores at (p, q) of its output block is the decoder's
  entry, in the kernel's arrangement of the normalisation, of row p of its input block and the parameter blocks.
  Both matrix products are plain sums over the contracted axis; a change of float format is the identity.
-/
import proofs.«112850_g12257836662994_cont_main3_557_6_alg».proof.Proof.Gen.KernelIdeal.Skeleton
import proofs.«112850_g12257836662994_cont_main3_557_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Decoder

open Idealize.ShloMosaic Idealize.ShloMosaic.ValueIdx Cert.KernelIdeal Cert.KernelIdeal.Gen
open scoped BigOperators

theorem lhs_first_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_first_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_first_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_first_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The first product at (p, c): the sum over the contracted axis of row p of the left factor times column c of the right. -/
theorem matmul_first_apply (l : FVec Ideal S2048x256 .bf16) (r : FVec Ideal S256x512 .bf16) (p : Fin 2048) (c : Fin 512) :
    matmul dot_S2048x256_S256x512_S2048x512_1_0_0_1_n_n none l r (constant S2048x512 .f32 0x00000000#32) (ix2 p c) = ∑ k : Fin 256, l (ix2 p k) * r (ix2 k c) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p c) ((contrEquiv1 dot_S2048x256_S256x512_S2048x512_1_0_0_1_n_n 256 rfl rfl).symm k) = ix2 p k := funext fun a => Fin.ext (by
    match a with
    | ⟨0, _⟩ => exact lhs_first_0 _ _
    | ⟨1, _⟩ => exact (lhs_first_1 _ _).trans hk)
  have er : dot_S2048x256_S256x512_S2048x512_1_0_0_1_n_n.rhsIdx (ix2 p c) ((contrEquiv1 dot_S2048x256_S256x512_S2048x512_1_0_0_1_n_n 256 rfl rfl).symm k) = ix2 k c := funext fun a => Fin.ext (by
    match a with
    | ⟨0, _⟩ => exact (rhs_first_0 _ _).trans hk
    | ⟨1, _⟩ => exact rhs_first_1 _ _)
  rw [el, er]

theorem lhs_second_0 (i : S2048x2.Idx) (q : dot_S2048x512_S512x2_S2048x2_1_0_0_1_n_n.contr.Idx) :
    (dot_S2048x512_S512x2_S2048x2_1_0_0_1_n_n.lhsIdx i q 0).val = (i 0).val := by
  unfold DotDims.lhsIdx
  rw [dif_neg (show ¬(0 : Fin S2048x512.rank) ∈ dot_S2048x512_S512x2_S2048x2_1_0_0_1_n_n.lhsBatch by decide), dif_pos (show (0 : Fin S2048x512.rank) ∈ dot_S2048x512_S512x2_S2048x2_1_0_0_1_n_n.lhsNonContracting by decide)]
  rfl
theorem lhs_second_1 (i : S2048x2.Idx) (q : dot_S2048x512_S512x2_S2048x2_1_0_0_1_n_n.contr.Idx) :
    (dot_S2048x512_S512x2_S2048x2_1_0_0_1_n_n.lhsIdx i q 1).val = (q ⟨0, by decide⟩).val :=
  dot_S2048x512_S512x2_S2048x2_1_0_0_1_n_n.lhsIdx_val_of_single rfl i q
theorem rhs_second_0 (i : S2048x2.Idx) (q : dot_S2048x512_S512x2_S2048x2_1_0_0_1_n_n.contr.Idx) :
    (dot_S2048x512_S512x2_S2048x2_1_0_0_1_n_n.rhsIdx i q 0).val = (q ⟨0, by decide⟩).val :=
  dot_S2048x512_S512x2_S2048x2_1_0_0_1_n_n.rhsIdx_val_of_single rfl i q
theorem rhs_second_1 (i : S2048x2.Idx) (q : dot_S2048x512_S512x2_S2048x2_1_0_0_1_n_n.contr.Idx) :
    (dot_S2048x512_S512x2_S2048x2_1_0_0_1_n_n.rhsIdx i q 1).val = (i 1).val := by
  unfold DotDims.rhsIdx
  rw [dif_neg (show ¬(1 : Fin S512x2.rank) ∈ dot_S2048x512_S512x2_S2048x2_1_0_0_1_n_n.rhsBatch by decide), dif_pos (show (1 : Fin S512x2.rank) ∈ dot_S2048x512_S512x2_S2048x2_1_0_0_1_n_n.rhsNonContracting by decide)]
  rfl

/-- The second product at (p, c): the sum over the contracted axis of row p of the left factor times column c of the right. -/
theorem matmul_second_apply (l : FVec Ideal S2048x512 .bf16) (r : FVec Ideal S512x2 .bf16) (p : Fin 2048) (c : Fin 2) :
    matmul dot_S2048x512_S512x2_S2048x2_1_0_0_1_n_n none l r (constant S2048x2 .f32 0x00000000#32) (ix2 p c) = ∑ k : Fin 512, l (ix2 p k) * r (ix2 k c) := by
  simp only [matmul]
  rw [Ideal.matmul_constant_zero_apply, ← Equiv.sum_comp (contrEquiv1 dot_S2048x512_S512x2_S2048x2_1_0_0_1_n_n 512 rfl rfl).symm]
  refine Finset.sum_congr rfl fun k _ => ?_
  have hk := contrEquiv1_symm_val dot_S2048x512_S512x2_S2048x2_1_0_0_1_n_n 512 rfl rfl k
  have el : dot_S2048x512_S512x2_S2048x2_1_0_0_1_n_n.lhsIdx (ix2 p c) ((contrEquiv1 dot_S2048x512_S512x2_S2048x2_1_0_0_1_n_n 512 rfl rfl).symm k) = ix2 p k := funext fun a => Fin.ext (by
    match a with
    | ⟨0, _⟩ => exact lhs_second_0 _ _
    | ⟨1, _⟩ => exact (lhs_second_1 _ _).trans hk)
  have er : dot_S2048x512_S512x2_S2048x2_1_0_0_1_n_n.rhsIdx (ix2 p c) ((contrEquiv1 dot_S2048x512_S512x2_S2048x2_1_0_0_1_n_n 512 rfl rfl).symm k) = ix2 k c := funext fun a => Fin.ext (by
    match a with
    | ⟨0, _⟩ => exact (rhs_second_0 _ _).trans hk
    | ⟨1, _⟩ => exact rhs_second_1 _ _)
  rw [el, er]

theorem rsqrt_apply {s : Shape} {φ : FTy} (a : FVec Ideal s φ) (i : s.Idx) : rsqrt a i = Ideal.rsqrt (a i) := rfl

theorem payload_entry (x0 : Vec Ideal S2048x256 .f32) (x1 : Vec Ideal S256x512 .f32) (b1 g var beta mu : Vec Ideal S1x512 .f32)
    (w2 : Vec Ideal S512x2 .f32) (b2 : Vec Ideal S1x2 .f32) (p : Fin 2048) (q : Fin 2) :
    k0_pay1 (k0_pay2 x0 x1 b1 g var beta mu w2) (k0_pay3 b2) (ix2 p q)
      = entry hidK (fun d => x0 (ix2 p d)) x1 (fun k => b1 (ix2 0 k)) (fun k => g (ix2 0 k)) (fun k => beta (ix2 0 k))
          (fun k => mu (ix2 0 k)) (fun k => var (ix2 0 k)) w2 (b2 (ix2 0 q)) q := by
  unfold k0_pay1 k0_pay2 k0_pay3
  dsimp only
  simp only [shapeCast_self]
  rw [addf_apply, matmul_second_apply, broadcastTo_1b_ab_apply]
  unfold entry
  congr 1
  refine Finset.sum_congr rfl fun k _ => ?_
  simp only [truncf_apply, addf_apply, mulf_apply, subf_apply, maximumf_apply, matmul_first_apply, broadcastTo_1b_ab_apply,
    broadcast_apply, rsqrt_apply, Ideal.ofBits_def, Ideal.ofBits_zero_f32]
  rfl

end Cert.Decoder

end
-- ==== Proof.KernelValue.lean ====
/-
  The kernel's program read as a value. One grid step t reads rows 2048·t … 2048·t + 2047 of the flattened input
  (the [16, 2048, 256] input reshaped to [32768, 256]) and the whole of every parameter array, and stores block t of
  the [32768, 2] output; entry (p, q) of that block is the decoder's entry of row p of the input block. So block t
  of the output is the restriction of one whole-array function G: entry (r, o) of G is the decoder's entry of row r
  of the flattened input. The 16 blocks tile the output (row r lies in block r / 2048), so the output array after
  the run is G, and the program's result is G reshaped to [16, 2048, 2]: entry (a, b, o) is entry (2048·a + b, o)
  of G, the decoder's entry of row (a, b) of the input. The parameter vectors reach the kernel reshaped from
  [512] to [1, 512] (and [2] to [1, 2]), which reads entry k at (0, k).
-/
import proofs.«112850_g12257836662994_cont_main3_557_6_alg».proof.Proof.Gen.KernelIdeal.Frame
import proofs.«112850_g12257836662994_cont_main3_557_6_alg».proof.Proof.Payload
import proofs.«112850_g12257836662994_cont_main3_557_6_alg».proof.Proof.Result
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Decoder

variable (m : (ℓ : Loc nD τ sig) → Buf (Elt Ideal) ℓ) (ρ : Dev nD → PrngReg)

theorem hz2 : (![0, 0] : Fin 2 → Nat) = fun _ => 0 := funext fun a => by fin_cases a <;> rfl

/-! ## The arrays the region finds, with their literal types -/

abbrev xArr (c : Dev nD) : Vec Ideal S32768x256 .f32 := V m c main_v0
abbrev w1Arr (c : Dev nD) : Vec Ideal S256x512 .f32 := V m c main_arg1
abbrev b1Arr (c : Dev nD) : Vec Ideal S1x512 .f32 := V m c main_v1
abbrev gArr (c : Dev nD) : Vec Ideal S1x512 .f32 := V m c main_v2
abbrev betaArr (c : Dev nD) : Vec Ideal S1x512 .f32 := V m c main_v3
abbrev muArr (c : Dev nD) : Vec Ideal S1x512 .f32 := V m c main_v4
abbrev varArr (c : Dev nD) : Vec Ideal S1x512 .f32 := V m c main_v5
abbrev w2Arr (c : Dev nD) : Vec Ideal S512x2 .f32 := V m c main_arg7
abbrev b2Arr (c : Dev nD) : Vec Ideal S1x2 .f32 := V m c main_v6

/-- The printed index maps, decided over the grid. -/
theorem idx_facts : ∀ t : Fin cfg0.N,
    win0_0.index t (0 : Fin 2) = win0_9.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem blk1 (c : Dev nD) (t : Fin cfg0.N) : (iblk m c 1 t : Vec Ideal S256x512 .f32) = w1Arr m c := by
  funext y
  show V m c main_arg1 (((cfg0.win 1).blk t).view.emb y) = V m c main_arg1 y
  refine congrArg (V m c main_arg1) (funext fun a => Fin.ext ?_)
  obtain ⟨-, -, e0, e1, -⟩ := idx_facts t
  match a with
  | ⟨0, _⟩ => show win0_1.index t (0 : Fin 2) * 256 + 1 * (y 0).val = (y 0).val; omega
  | ⟨1, _⟩ => show win0_1.index t (1 : Fin 2) * 512 + 1 * (y 1).val = (y 1).val; omega

theorem blk2 (c : Dev nD) (t : Fin cfg0.N) : (iblk m c 2 t : Vec Ideal S1x512 .f32) = b1Arr m c := by
  funext y
  show V m c main_v1 (((cfg0.win 2).blk t).view.emb y) = V m c main_v1 y
  refine congrArg (V m c main_v1) (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem blk3 (c : Dev nD) (t : Fin cfg0.N) : (iblk m c 3 t : Vec Ideal S1x512 .f32) = gArr m c := by
  funext y
  show V m c main_v2 (((cfg0.win 3).blk t).view.emb y) = V m c main_v2 y
  refine congrArg (V m c main_v2) (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem blk4 (c : Dev nD) (t : Fin cfg0.N) : (iblk m c 4 t : Vec Ideal S1x512 .f32) = betaArr m c := by
  funext y
  show V m c main_v3 (((cfg0.win 4).blk t).view.emb y) = V m c main_v3 y
  refine congrArg (V m c main_v3) (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem blk5 (c : Dev nD) (t : Fin cfg0.N) : (iblk m c 5 t : Vec Ideal S1x512 .f32) = muArr m c := by
  funext y
  show V m c main_v4 (((cfg0.win 5).blk t).view.emb y) = V m c main_v4 y
  refine congrArg (V m c main_v4) (funext fun a => Fin.ext ?_)
  obtain ⟨-, -, -, -, -, -, -, -, -, -, e0, e1, -⟩ := idx_facts t
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem blk6 (c : Dev nD) (t : Fin cfg0.N) : (iblk m c 6 t : Vec Ideal S1x512 .f32) = varArr m c := by
  funext y
  show V m c main_v5 (((cfg0.win 6).blk t).view.emb y) = V m c main_v5 y
  refine congrArg (V m c main_v5) (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem blk7 (c : Dev nD) (t : Fin cfg0.N) : (iblk m c 7 t : Vec Ideal S512x2 .f32) = w2Arr m c := by
  funext y
  show V m c main_arg7 (((cfg0.win 7).blk t).view.emb y) = V m c main_arg7 y
  refine congrArg (V m c main_arg7) (funext fun a => Fin.ext ?_)
  obtain ⟨-, -, -, -, -, -, -, -, -, -, -, -, -, -, e0, e1, -⟩ := idx_facts t
  match a with
  | ⟨0, _⟩ => show win0_7.index t (0 : Fin 2) * 512 + 1 * (y 0).val = (y 0).val; omega
  | ⟨1, _⟩ => show win0_7.index t (1 : Fin 2) * 2 + 1 * (y 1).val = (y 1).val; omega

theorem blk8 (c : Dev nD) (t : Fin cfg0.N) : (iblk m c 8 t : Vec Ideal S1x2 .f32) = b2Arr m c := by
  funext y
  show V m c main_v6 (((cfg0.win 8).blk t).view.emb y) = V m c main_v6 y
  refine congrArg (V m c main_v6) (funext fun a => Fin.ext ?_)
  obtain ⟨-, -, -, -, -, -, -, -, -, -, -, -, -, -, -, -, e0, e1, -⟩ := idx_facts t
  match a with
  | ⟨0, _⟩ => show win0_8.index t (0 : Fin 2) * 1 + 1 * (y 0).val = (y 0).val; omega
  | ⟨1, _⟩ => show win0_8.index t (1 : Fin 2) * 2 + 1 * (y 1).val = (y 1).val; omega

/-- Row p of the input block at point t is the row of the flattened input that the output block's row p sits at. -/
theorem blk0 (c : Dev nD) (t : Fin cfg0.N) (p : Fin 2048) (q : Fin 2) (d : Fin 256) :
    (iblk m c 0 t : Vec Ideal S2048x256 .f32) (ix2 p d)
      = xArr m c (ix2 ((((cfg0.win 9).blk t).view.emb (ix2 p q) : S32768x2.Idx) 0) d) := by
  show V m c main_v0 (((cfg0.win 0).blk t).view.emb (ix2 p d)) = V m c main_v0 _
  refine congrArg (V m c main_v0) (funext fun a => Fin.ext ?_)
  obtain ⟨e0, e1, -⟩ := idx_facts t
  match a with
  | ⟨0, _⟩ => show win0_0.index t (0 : Fin 2) * 2048 + 1 * p.val = win0_9.index t (0 : Fin 2) * 2048 + 1 * p.val; omega
  | ⟨1, _⟩ => show win0_0.index t (1 : Fin 2) * 256 + 1 * d.val = d.val; omega

/-- The column of an element of the output block is its column in the array. -/
theorem col9 (t : Fin cfg0.N) (p : Fin 2048) (q : Fin 2) :
    (((cfg0.win 9).blk t).view.emb (ix2 p q) : S32768x2.Idx) 1 = q := by
  obtain ⟨-, -, -, -, -, -, -, -, -, -, -, -, -, -, -, -, -, -, e0, e1⟩ := idx_facts t
  apply Fin.ext
  show win0_9.index t (1 : Fin 2) * 2 + 1 * q.val = q.val
  omega

/-! ## The output array as one function of the arrays the region finds -/

/-- Entry (r, o) of the kernel's output array: the decoder's entry of row r of the flattened input. -/
def Gat (c : Dev nD) (r : Fin 32768) (o : Fin 2) : EReal :=
  entry hidK (fun d => xArr m c (ix2 r d)) (w1Arr m c) (fun k => b1Arr m c (ix2 0 k)) (fun k => gArr m c (ix2 0 k))
    (fun k => betaArr m c (ix2 0 k)) (fun k => muArr m c (ix2 0 k)) (fun k => varArr m c (ix2 0 k)) (w2Arr m c)
    (b2Arr m c (ix2 0 o)) o

def G (c : Dev nD) : Vec Ideal S32768x2 .f32 := fun j => Gat m c (j 0) (j 1)

/-- What point t writes back is block t of G. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz2]
  simp only [View.ld_unit_zero (S := S2048x256) hz2, View.ld_unit_zero (S := S256x512) hz2, View.ld_unit_zero (S := S1x512) hz2,
    View.ld_unit_zero (S := S512x2) hz2, View.ld_unit_zero (S := S1x2) hz2]
  funext y
  obtain ⟨p, q, rfl⟩ : ∃ (p : Fin 2048) (q : Fin 2), y = ix2 p q := ⟨y 0, y 1, eq_ix2 y⟩
  show k0_pay1 (k0_pay2 (iblk m c 0 t) (iblk m c 1 t) (iblk m c 2 t) (iblk m c 3 t) (iblk m c 6 t) (iblk m c 4 t)
      (iblk m c 5 t) (iblk m c 7 t)) (k0_pay3 (iblk m c 8 t)) (ix2 p q)
    = Gat m c ((((cfg0.win 9).blk t).view.emb (ix2 p q) : S32768x2.Idx) 0) ((((cfg0.win 9).blk t).view.emb (ix2 p q) : S32768x2.Idx) 1)
  rw [blk1 m c t, blk2 m c t, blk3 m c t, blk4 m c t, blk5 m c t, blk6 m c t, blk7 m c t, blk8 m c t]
  refine (payload_entry (iblk m c 0 t) (w1Arr m c) (b1Arr m c) (gArr m c) (varArr m c) (betaArr m c) (muArr m c) (w2Arr m c)
    (b2Arr m c) p q).trans ?_
  rw [col9 t p q]
  unfold Gat
  simp only [blk0 m c t p q]

/-- An index of the output array is in point t's block iff each coordinate is in the block's range on its axis. -/
theorem mem_blk (t : Fin cfg0.N) (i : S32768x2.Idx) :
    i ∈ ((cfg0.win 9).blk t).view.set ↔ ∀ a : Fin 2, win0_9.index t a * S2048x2.size a ≤ (i a).val ∧ (i a).val < win0_9.index t a * S2048x2.size a + S2048x2.size a := by
  show i ∈ ((View.whole main_v7).slice (win0_9.rect t)).set ↔ _
  rw [View.set_slice_whole, Rect.mem_set_unit]
  exact Iff.rfl

/-- Every index of the output array is in the block of the point its row falls in: row r is in block r / 2048. -/
theorem cover (i : S32768x2.Idx) : ∃ t : Fin cfg0.N, (cfg0.win 9).flush t = true ∧ i ∈ ((cfg0.win 9).blk t).view.set := by
  have hi0 : (i 0).val < 32768 := (i 0).isLt
  have hi1 : (i 1).val < 2 := (i 1).isLt
  have hN : cfg0.N = 16 := N_0
  have ht : (i 0).val / 2048 < cfg0.N := by rw [hN]; omega
  refine ⟨⟨(i 0).val / 2048, ht⟩, flush0_9 _, ?_⟩
  rw [mem_blk]
  obtain ⟨-, -, -, -, -, -, -, -, -, -, -, -, -, -, -, -, -, -, e0, e1⟩ := idx_facts ⟨(i 0).val / 2048, ht⟩
  have e0' : win0_9.index ⟨(i 0).val / 2048, ht⟩ (0 : Fin 2) = (i 0).val / 2048 := e0
  intro a
  match a with
  | ⟨0, _⟩ =>
    show win0_9.index ⟨(i 0).val / 2048, ht⟩ (0 : Fin 2) * 2048 ≤ (i 0).val ∧ (i 0).val < win0_9.index ⟨(i 0).val / 2048, ht⟩ (0 : Fin 2) * 2048 + 2048
    rw [e0']; omega
  | ⟨1, _⟩ =>
    show win0_9.index ⟨(i 0).val / 2048, ht⟩ (1 : Fin 2) * 2 ≤ (i 1).val ∧ (i 1).val < win0_9.index ⟨(i 0).val / 2048, ht⟩ (1 : Fin 2) * 2 + 2
    rw [e1]; omega

/-- The output array after the run is G. -/
theorem final (c : Dev nD) : (dats m 0 c).arrAt 9 cfg0.N = G m c :=
  (dats m 0 c).arrAt_eq_of_cover 9 (G m c) (fun t _ => flushed_eq m c t) cover

/-! ## The host reshapes before the region -/

theorem xArr_eq (c : Dev nD) :
    xArr m c = shapeCast S32768x256 (m ((c : Thread nD τ).loc main_arg0)) shapeCasts_S16x2048x256_S32768x256 := by
  show StableHlo.after hostOps0 (fun b => m (c, b)) (Proc.devRef .tc main_v0) = _
  after_results
  rfl

theorem b1Arr_eq (c : Dev nD) :
    b1Arr m c = shapeCast S1x512 (m ((c : Thread nD τ).loc main_arg2)) shapeCasts_S512_S1x512 := by
  show StableHlo.after hostOps0 (fun b => m (c, b)) (Proc.devRef .tc main_v1) = _
  after_results
  rfl

theorem gArr_eq (c : Dev nD) :
    gArr m c = shapeCast S1x512 (m ((c : Thread nD τ).loc main_arg3)) shapeCasts_S512_S1x512 := by
  show StableHlo.after hostOps0 (fun b => m (c, b)) (Proc.devRef .tc main_v2) = _
  after_results
  rfl

theorem betaArr_eq (c : Dev nD) :
    betaArr m c = shapeCast S1x512 (m ((c : Thread nD τ).loc main_arg4)) shapeCasts_S512_S1x512 := by
  show StableHlo.after hostOps0 (fun b => m (c, b)) (Proc.devRef .tc main_v3) = _
  after_results
  rfl

theorem muArr_eq (c : Dev nD) :
    muArr m c = shapeCast S1x512 (m ((c : Thread nD τ).loc main_arg5)) shapeCasts_S512_S1x512 := by
  show StableHlo.after hostOps0 (fun b => m (c, b)) (Proc.devRef .tc main_v4) = _
  after_results
  rfl

theorem varArr_eq (c : Dev nD) :
    varArr m c = shapeCast S1x512 (m ((c : Thread nD τ).loc main_arg6)) shapeCasts_S512_S1x512 := by
  show StableHlo.after hostOps0 (fun b => m (c, b)) (Proc.devRef .tc main_v5) = _
  after_results
  rfl

theorem b2Arr_eq (c : Dev nD) :
    b2Arr m c = shapeCast S1x2 (m ((c : Thread nD τ).loc main_arg8)) shapeCasts_S2_S1x2 := by
  show StableHlo.after hostOps0 (fun b => m (c, b)) (Proc.devRef .tc main_v6) = _
  after_results
  rfl

theorem w1Arr_eq (c : Dev nD) : w1Arr m c = m ((c : Thread nD τ).loc main_arg1) := V_main_arg1 m c
theorem w2Arr_eq (c : Dev nD) : w2Arr m c = m ((c : Thread nD τ).loc main_arg7) := V_main_arg7 m c

/-- Row a·2048 + b of the flattened input is row (a, b) of x. -/
theorem xArr_row (c : Dev nD) (a : Fin 16) (b : Fin 2048) (d : Fin 256) (hr : a.val * 2048 + b.val < 32768) :
    xArr m c (ix2 ⟨a.val * 2048 + b.val, hr⟩ d) = (m ((c : Thread nD τ).loc main_arg0) : Vec Ideal S16x2048x256 .f32) (ix3 a b d) := by
  rw [xArr_eq]
  refine shapeCast_apply (s := S16x2048x256) (t := S32768x256) _ _ _ _ ?_
  rw [Shape.rowMajor_val_two, Shape.rowMajor_val_three]
  rfl

/-! ## The reshape after the region -/

theorem result_eq (c : Dev nD) :
    Pipeline.afterTail₀ cfgs (dats m) 0 (V0 m) [hostOps1] c main_v8
      = shapeCast S16x2048x2 (G m c) shapeCasts_S32768x2_S16x2048x2 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v7)
      = G m c := (Pipeline.withArrays_arr spec0 launch0.win.arr_inj c _ _ 9).trans (final m c)
  rw [hw]
  rfl

/-- The kernel's result: the reshaped output array is the result function, in the kernel's arrangement, of the inputs. -/
theorem result_value (c : Dev nD) :
    shapeCast S16x2048x2 (G m c) shapeCasts_S32768x2_S16x2048x2
      = out3 hidK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  funext i
  obtain ⟨a, b, o, rfl⟩ : ∃ (a : Fin 16) (b : Fin 2048) (o : Fin 2), i = ix3 a b o := ⟨i 0, i 1, i 2, eq_ix3 i⟩
  have hr : a.val * 2048 + b.val < 32768 := by omega
  rw [shapeCast_apply (G m c) shapeCasts_S32768x2_S16x2048x2 (ix3 a b o) (ix2 ⟨a.val * 2048 + b.val, hr⟩ o) (by
    rw [Shape.rowMajor_val_two, Shape.rowMajor_val_three]
    rfl)]
  show Gat m c ⟨a.val * 2048 + b.val, hr⟩ o = _
  unfold Gat out3
  simp only [xArr_row m c a b _ hr]
  rw [b1Arr_eq, gArr_eq, betaArr_eq, muArr_eq, varArr_eq, b2Arr_eq, w1Arr_eq, w2Arr_eq]
  simp only [shapeCast_a_1a_apply]

/-! ## The run, read -/

/-- Every weakly fair execution of the kernel's program terminates with its result at the result function, in the
    kernel's arrangement, of the inputs, and the inputs unchanged. -/
theorem run : θ_run defs (onTc (τ := τ) (main (F := Ideal))) ⟨m, fun _ => 0, ρ⟩ fun r => ∀ c : Dev nD,
      r.2.mem ((c : Thread nD τ).loc main_v8)
        = out3 hidK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨(((h c).2 main_v8 (Pipeline.mem_restRefs_of main_v8 (by decide) (by decide))).trans (result_eq m c)).trans (result_value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.KValue

end
-- ==== Proof.lean ====
/-
  The certificate of a two-layer decoder with a per-channel normalisation between the layers.

  Both programs compute, for each of the 16 · 2048 rows x of the input and each of the two outputs o,
      Σ_k h k · W2 (k, o) + b2 o,     a k = max (Σ_d x d · W1 (d, k) + b1 k) 0,
  where h k is the normalised activation of channel k. The kernel forms a scale γ · rsqrt (v + ε) and a shift
  β − μ · scale once per channel and applies h = a · scale + shift; the reference computes
  h = (a − μ) / sqrt (v + ε) · γ + β. Over the extended reals the two are the same number exactly when the
  operands are finite and 0 < v + ε (distributivity, and rsqrt s = 1 / √s, need both); at v + ε ≤ 0 the
  reference's own square root or quotient leaves its domain. The precondition therefore asks, beside finiteness
  of every input, 0 < running_var + ε on every channel.

  The kernel walks the flattened input in 16 blocks of 2048 rows; its output array is the blocks laid side by
  side, reshaped back to [16, 2048, 2]. A change of float format is the identity on the extended reals, and a
  matrix product is the plain sum over the contracted axis, so no order of summation enters.
-/
import proofs.«112850_g12257836662994_cont_main3_557_6_alg».proof.Defs
import proofs.«112850_g12257836662994_cont_main3_557_6_alg».proof.Proof.Gen.Kernel
import proofs.«112850_g12257836662994_cont_main3_557_6_alg».proof.Proof.Gen.Kernel.Skeleton
import proofs.«112850_g12257836662994_cont_main3_557_6_alg».proof.Proof.Gen.Kernel.Launch
import proofs.«112850_g12257836662994_cont_main3_557_6_alg».proof.Proof.Gen.Kernel.Points
import proofs.«112850_g12257836662994_cont_main3_557_6_alg».proof.Proof.Gen.Kernel.Frame
import proofs.«112850_g12257836662994_cont_main3_557_6_alg».proof.Proof.Gen.KernelIdeal
import proofs.«112850_g12257836662994_cont_main3_557_6_alg».proof.Proof.Gen.KernelIdeal.Skeleton
import proofs.«112850_g12257836662994_cont_main3_557_6_alg».proof.Proof.Gen.KernelIdeal.Launch
import proofs.«112850_g12257836662994_cont_main3_557_6_alg».proof.Proof.Gen.KernelIdeal.Points
import proofs.«112850_g12257836662994_cont_main3_557_6_alg».proof.Proof.Gen.KernelIdeal.Frame
import proofs.«112850_g12257836662994_cont_main3_557_6_alg».proof.Proof.Gen.ReferenceIdeal
import proofs.«112850_g12257836662994_cont_main3_557_6_alg».proof.Proof.Gen.Pre_finite_inputs
import proofs.«112850_g12257836662994_cont_main3_557_6_alg».proof.Proof.Gen.ReferenceIdeal.Run
import proofs.«112850_g12257836662994_cont_main3_557_6_alg».proof.Proof.Gen.ReferenceIdeal.Read
import proofs.«112850_g12257836662994_cont_main3_557_6_alg».proof.Proof.Result
import proofs.«112850_g12257836662994_cont_main3_557_6_alg».proof.Proof.PreDecode
import proofs.«112850_g12257836662994_cont_main3_557_6_alg».proof.Proof.RefValue
import proofs.«112850_g12257836662994_cont_main3_557_6_alg».proof.Proof.KernelValue
import Idealize.ShloMosaic.Adequacy
import Idealize.ShloMosaic.Init

noncomputable section

namespace Cert.Proof

open Idealize.ShloMosaic Idealize.ShloMosaic.TcCoe Idealize.SL.Sem Cert.Decoder

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the inputs, the kernel's result is the result function in its own arrangement of the
    normalisation, the reference's the same function in the other arrangement; under the precondition every operand is
    a real number and 0 < var k + ε, where the two arrangements are one number. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨h0, h1, h2, h3, h4, h5, h6, -, -, hpos⟩ := pre_facts _ _ _ _ _ _ _ _ _ (hpre c)
  rw [e0, e1, e2, e3, e4, e5, e6, e7, e8]
  refine (Cert.ReferenceIdeal.Read.val_main_v24_eq _ _ _ _ _ _ _ _ _).trans ?_
  rw [ref_value]
  exact (out3_eq _ _ _ _ _ _ _ _ _ h0 h1 h2 h3 h4 h5 h6 hpos).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
